-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S64x128 .f32) (main_arg6 : FVec F S128 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : IVec S2x800000 32) (main_arg2 : FVec F S800000 .f32) (main_arg3 : FVec F S128x64 .f32) (main_arg4 : FVec F S64 .f32) (main_arg5 : FVec F S64x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S50000 : Shape := ⟨1, ![50000]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S5000x128 : Shape := ⟨2, ![5000, 128]⟩
abbrev S5000x64 : Shape := ⟨2, ![5000, 64]⟩
abbrev S850000x64 : Shape := ⟨2, ![850000, 64]⟩
abbrev S1x64 : Shape := ⟨2, ![1, 64]⟩
abbrev S850000x128 : Shape := ⟨2, ![850000, 128]⟩
abbrev S1x128 : Shape := ⟨2, ![1, 128]⟩

abbrev nBuf : Space → Nat
  | .hbm => 92
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x64, .f32⟩
  | .hbm, ⟨4, _⟩ => ⟨S64, .f32⟩
  | .hbm, ⟨5, _⟩ => ⟨S64x128, .f32⟩
  | .hbm, ⟨6, _⟩ => ⟨S128, .f32⟩
  | .hbm, ⟨7, _⟩ => ⟨S50000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S_, .f32⟩
  | .hbm, ⟨15, _⟩ => ⟨S50000, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x64, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x64, .f32⟩
  | .hbm, ⟨59, _⟩ => ⟨S850000x1, .f32⟩
  | .hbm, ⟨60, _⟩ => ⟨S850000x64, .f32⟩
  | .hbm, ⟨61, _⟩ => ⟨S850000x64, .f32⟩
  | .hbm, ⟨62, _⟩ => ⟨S_, .f32⟩
  | .hbm, ⟨63, _⟩ => ⟨S50000x64, .f32⟩
  | .hbm, ⟨64, _⟩ => ⟨S850000x1, .i32⟩
  | .hbm, ⟨65, _⟩ => ⟨S50000x64, .f32⟩
  | .hbm, ⟨66, _⟩ => ⟨S1x64, .f32⟩
  | .hbm, ⟨67, _⟩ => ⟨S50000x64, .f32⟩
  | .hbm, ⟨68, _⟩ => ⟨S50000x64, .f32⟩
  | .hbm, ⟨69, _⟩ => ⟨S_, .f32⟩
  | .hbm, ⟨70, _⟩ => ⟨S50000x64, .f32⟩
  | .hbm, ⟨71, _⟩ => ⟨S50000x64, .f32⟩
  | .hbm, ⟨72, _⟩ => ⟨S50000x128, .f32⟩
  | .hbm, ⟨73, _⟩ => ⟨S_, .i32⟩
  | .hbm, ⟨74, _⟩ => ⟨S850000, .i32⟩
  | .hbm, ⟨75, _⟩ => ⟨S850000, .i1⟩
  | .hbm, ⟨76, _⟩ => ⟨S_, .i32⟩
  | .hbm, ⟨77, _⟩ => ⟨S850000, .i32⟩
  | .hbm, ⟨78, _⟩ => ⟨S850000, .i32⟩
  | .hbm, ⟨79, _⟩ => ⟨S850000, .i32⟩
  | .hbm, ⟨80, _⟩ => ⟨S850000x1, .i32⟩
  | .hbm, ⟨81, _⟩ => ⟨S850000x128, .f32⟩
  | .hbm, ⟨82, _⟩ => ⟨S850000x1, .f32⟩
  | .hbm, ⟨83, _⟩ => ⟨S850000x128, .f32⟩
  | .hbm, ⟨84, _⟩ => ⟨S850000x128, .f32⟩
  | .hbm, ⟨85, _⟩ => ⟨S_, .f32⟩
  | .hbm, ⟨86, _⟩ => ⟨S50000x128, .f32⟩
  | .hbm, ⟨87, _⟩ => ⟨S850000x1, .i32⟩
  | .hbm, ⟨88, _⟩ => ⟨S50000x128, .f32⟩
  | .hbm, ⟨89, _⟩ => ⟨S1x128, .f32⟩
  | .hbm, ⟨90, _⟩ => ⟨S50000x128, .f32⟩
  | .hbm, ⟨91, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64x128, .f32⟩
  | .local _ .vmem, ⟨8, _⟩ => ⟨S5000x128, .f32⟩
  | .local _ .vmem, ⟨9, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_9 : Ref sig .tc := ⟨.hbm, 73, rfl⟩
abbrev main_v51 : Ref sig .tc := ⟨.hbm, 74, rfl⟩
abbrev main_v52 : Ref sig .tc := ⟨.hbm, 75, rfl⟩
abbrev main_c_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_11 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  shapeCasts_S5000x64_S5000x64 : S5000x64.ShapeCasts S5000x64
  inb_S64x128_S64x128_0_0 : ∀ a, (![0, 0] : Fin 2 → Nat) a + S64x128.size a ≤ S64x128.size a
  h_S64x128 : 0 < S64x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x128_S5000x128_1_0_0_1_n_n_wf : DotDims.WF S5000x64 S64x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S64x128.size a
  hwx1_1 : ∀ i : grid1.Coords, EltTy.bits .f32 = 32 ∨ (Rect.block (s := S64x128) S64x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S50000 : Shape := ⟨1, ![50000]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S850000x64 : Shape := ⟨2, ![850000, 64]⟩
abbrev S1x64 : Shape := ⟨2, ![1, 64]⟩
abbrev S850000x128 : Shape := ⟨2, ![850000, 128]⟩
abbrev S1x128 : Shape := ⟨2, ![1, 128]⟩

abbrev nBuf : Space → Nat
  | .hbm => 92
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x64, .f32⟩
  | .hbm, ⟨4, _⟩ => ⟨S64, .f32⟩
  | .hbm, ⟨5, _⟩ => ⟨S64x128, .f32⟩
  | .hbm, ⟨6, _⟩ => ⟨S128, .f32⟩
  | .hbm, ⟨7, _⟩ => ⟨S50000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S_, .f32⟩
  | .hbm, ⟨15, _⟩ => ⟨S50000, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x64, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x64, .f32⟩
  | .hbm, ⟨59, _⟩ => ⟨S850000x1, .f32⟩
  | .hbm, ⟨60, _⟩ => ⟨S850000x64, .f32⟩
  | .hbm, ⟨61, _⟩ => ⟨S850000x64, .f32⟩
  | .hbm, ⟨62, _⟩ => ⟨S_, .f32⟩
  | .hbm, ⟨63, _⟩ => ⟨S50000x64, .f32⟩
  | .hbm, ⟨64, _⟩ => ⟨S850000x1, .i32⟩
  | .hbm, ⟨65, _⟩ => ⟨S50000x64, .f32⟩
  | .hbm, ⟨66, _⟩ => ⟨S1x64, .f32⟩
  | .hbm, ⟨67, _⟩ => ⟨S50000x64, .f32⟩
  | .hbm, ⟨68, _⟩ => ⟨S50000x64, .f32⟩
  | .hbm, ⟨69, _⟩ => ⟨S_, .f32⟩
  | .hbm, ⟨70, _⟩ => ⟨S50000x64, .f32⟩
  | .hbm, ⟨71, _⟩ => ⟨S50000x64, .f32⟩
  | .hbm, ⟨72, _⟩ => ⟨S50000x128, .f32⟩
  | .hbm, ⟨73, _⟩ => ⟨S_, .i32⟩
  | .hbm, ⟨74, _⟩ => ⟨S850000, .i32⟩
  | .hbm, ⟨75, _⟩ => ⟨S850000, .i1⟩
  | .hbm, ⟨76, _⟩ => ⟨S_, .i32⟩
  | .hbm, ⟨77, _⟩ => ⟨S850000, .i32⟩
  | .hbm, ⟨78, _⟩ => ⟨S850000, .i32⟩
  | .hbm, ⟨79, _⟩ => ⟨S850000, .i32⟩
  | .hbm, ⟨80, _⟩ => ⟨S850000x1, .i32⟩
  | .hbm, ⟨81, _⟩ => ⟨S850000x128, .f32⟩
  | .hbm, ⟨82, _⟩ => ⟨S850000x1, .f32⟩
  | .hbm, ⟨83, _⟩ => ⟨S850000x128, .f32⟩
  | .hbm, ⟨84, _⟩ => ⟨S850000x128, .f32⟩
  | .hbm, ⟨85, _⟩ => ⟨S_, .f32⟩
  | .hbm, ⟨86, _⟩ => ⟨S50000x128, .f32⟩
  | .hbm, ⟨87, _⟩ => ⟨S850000x1, .i32⟩
  | .hbm, ⟨88, _⟩ => ⟨S50000x128, .f32⟩
  | .hbm, ⟨89, _⟩ => ⟨S1x128, .f32⟩
  | .hbm, ⟨90, _⟩ => ⟨S50000x128, .f32⟩
  | .hbm, ⟨91, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_9 : Ref sig .tc := ⟨.hbm, 73, rfl⟩
abbrev main_v51 : Ref sig .tc := ⟨.hbm, 74, rfl⟩
abbrev main_v52 : Ref sig .tc := ⟨.hbm, 75, rfl⟩
abbrev main_c_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_11 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x128_S50000x128_1_0_0_1_n_n_wf : DotDims.WF S50000x64 S64x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.DenseFirst.lean ====
/-
  The first dense product of the kernel program, as ONE function of the arrays its region is entered with.

  The first region walks the 50000 rows of its left operand in ten blocks of 5000 rows. At a block the body
  multiplies the 5000×128 block by the whole 128×64 right operand into a zero accumulator; the change of float
  format before the product is the identity over the extended reals. So the block written back at point `t`
  holds, at row `p` and column `q`, the sum over `k` of left (5000·t + p, k) · right (k, q), which is the
  entry (5000·t + p, q) of the plain product `rowsByCols`. The ten blocks tile the 50000×64 result, so the
  array the region leaves is `rowsByCols` of the two arrays it was entered with.
-/
import proofs.«112920_j38500086841928_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.DenseFirst

open Cert.KernelIdeal Cert.KernelIdeal.Gen Idealize.ShloMosaic Idealize.ShloMosaic.TcCoe Idealize.SL.Sem
open Idealize.ShloMosaic.Pipeline (Dat)

/-! ## The product, index by index -/

/-- Row `i 0`, column `k` of the left operand. -/
abbrev leftAt (i : S50000x64.Idx) (k : Fin 128) : S50000x128.Idx := fun a => match a with
  | ⟨0, _⟩ => ⟨(i 0).val, (i 0).isLt⟩
  | ⟨1, _⟩ => ⟨k.val, k.isLt⟩
/-- Row `k`, column `i 1` of the right operand. -/
abbrev rightAt (i : S50000x64.Idx) (k : Fin 128) : S128x64.Idx := fun a => match a with
  | ⟨0, _⟩ => ⟨k.val, k.isLt⟩
  | ⟨1, _⟩ => ⟨(i 1).val, (i 1).isLt⟩

/-- The 50000×128 by 128×64 product over the extended reals: entry (r, q) is the sum over `k` of
    left (r, k) · right (k, q). -/
def rowsByCols (x : FVec Ideal S50000x128 .f32) (w : FVec Ideal S128x64 .f32) : FVec Ideal S50000x64 .f32 :=
  fun i => ∑ k : Fin 128, x (leftAt i k) * w (rightAt i k)

/-! ## One block's product -/

theorem offZero : (![0, 0] : Fin 2 → Nat) = fun _ => 0 := funext fun a => by fin_cases a <;> rfl

/-- Row `j 0`, column `k` of a 5000-row block of the left operand. -/
abbrev blockLeftAt (j : S5000x64.Idx) (k : Fin 128) : S5000x128.Idx := fun a => match a with
  | ⟨0, _⟩ => ⟨(j 0).val, (j 0).isLt⟩
  | ⟨1, _⟩ => ⟨k.val, k.isLt⟩

/-- Row `k`, column `j 1` of the right operand, from a block's index. -/
abbrev blockRightAt (j : S5000x64.Idx) (k : Fin 128) : S128x64.Idx := fun a => match a with
  | ⟨0, _⟩ => ⟨k.val, k.isLt⟩
  | ⟨1, _⟩ => ⟨(j 1).val, (j 1).isLt⟩

theorem lhs_axis0 (j : S5000x64.Idx) (q : dot_S5000x128_S128x64_S5000x64_1_0_0_1_n_n.contr.Idx) :
    (dot_S5000x128_S128x64_S5000x64_1_0_0_1_n_n.lhsIdx j q 0).val = (j 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_axis1 (j : S5000x64.Idx) (q : dot_S5000x128_S128x64_S5000x64_1_0_0_1_n_n.contr.Idx) :
    (dot_S5000x128_S128x64_S5000x64_1_0_0_1_n_n.lhsIdx j q 1).val = (q ⟨0, by decide⟩).val :=
  dot_S5000x128_S128x64_S5000x64_1_0_0_1_n_n.lhsIdx_val_of_single rfl j q
theorem rhs_axis0 (j : S5000x64.Idx) (q : dot_S5000x128_S128x64_S5000x64_1_0_0_1_n_n.contr.Idx) :
    (dot_S5000x128_S128x64_S5000x64_1_0_0_1_n_n.rhsIdx j q 0).val = (q ⟨0, by decide⟩).val :=
  dot_S5000x128_S128x64_S5000x64_1_0_0_1_n_n.rhsIdx_val_of_single rfl j q
theorem rhs_axis1 (j : S5000x64.Idx) (q : dot_S5000x128_S128x64_S5000x64_1_0_0_1_n_n.contr.Idx) :
    (dot_S5000x128_S128x64_S5000x64_1_0_0_1_n_n.rhsIdx j q 1).val = (j 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The body's one stored value at row `j 0`, column `j 1` of the block: the sum over `k` of the loaded left
    block at (j 0, k) times the loaded right operand at (k, j 1). -/
theorem blockProduct_apply (x0 : FVec Ideal S5000x128 .f32) (x1 : FVec Ideal S128x64 .f32) (j : S5000x64.Idx) :
    k0_pay1 (F := Ideal) x0 x1 j = ∑ k : Fin 128, x0 (blockLeftAt j k) * x1 (blockRightAt j k) := by
  unfold k0_pay1
  show FloatOps.matmul dot_S5000x128_S128x64_S5000x64_1_0_0_1_n_n none x0 x1 (constant S5000x64 .f32 0x00000000#32) j = _
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx j ((ValueIdx.contrEquiv1 dot_S5000x128_S128x64_S5000x64_1_0_0_1_n_n 128 rfl rfl).symm k) = blockLeftAt j k := funext fun a => Fin.ext (by
    match a with
    | ⟨0, _⟩ => exact lhs_axis0 _ _
    | ⟨1, _⟩ => exact (lhs_axis1 _ _).trans hk)
  have er : dot_S5000x128_S128x64_S5000x64_1_0_0_1_n_n.rhsIdx j ((ValueIdx.contrEquiv1 dot_S5000x128_S128x64_S5000x64_1_0_0_1_n_n 128 rfl rfl).symm k) = blockRightAt j k := funext fun a => Fin.ext (by
    match a with
    | ⟨0, _⟩ => exact (rhs_axis0 _ _).trans hk
    | ⟨1, _⟩ => exact rhs_axis1 _ _)
  rw [el, er]

/-- A block's stored value at `j` is the whole product at `i`, once the loaded left block at (j 0, k) is the left array
    at (i 0, k) and the loaded right operand at (k, j 1) is the right array at (k, i 1), for every `k`. -/
theorem blockProduct_eq (X : FVec Ideal S50000x128 .f32) (W : FVec Ideal S128x64 .f32)
    (x0 : FVec Ideal S5000x128 .f32) (x1 : FVec Ideal S128x64 .f32) (j : S5000x64.Idx) (i : S50000x64.Idx)
    (hx : ∀ k : Fin 128, x0 (blockLeftAt j k) = X (leftAt i k)) (hw : ∀ k : Fin 128, x1 (blockRightAt j k) = W (rightAt i k)) :
    k0_pay1 (F := Ideal) x0 x1 j = rowsByCols X W i := by
  rw [blockProduct_apply]
  exact Finset.sum_congr rfl fun k _ => by rw [hx k, hw k]

/-! ## From the blocks to the array -/

section Region

variable (V : (c : Dev nD) → (b : Ref sig .tc) → Buf (Elt Ideal) ((c : Thread nD τ).loc b))

/-- The printed index maps over the grid: the left operand's block and the result's block move together along the
    rows, one block per point; the right operand is always its one whole block. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every one of the ten row blocks of the result is some point's. -/
theorem index_onto : ∀ q0 : Fin 10, ∃ t : Fin cfg0.N, win0_2.index t = ![q0.val, 0] :=
  (by decide +kernel : ∀ q0 : Fin 10, ∃ t : Fin grid0.N, win0_2.index t = ![q0.val, 0])

/-- What point `t` writes back is block `t` of the product of the two arrays the region was entered with. -/
theorem flushed_eq (c : Dev nD) (t : Fin cfg0.N) :
    (dat0 V c).flushed 2 t = ((cfg0.win 2).blk t).view.read (Elt Ideal) (rowsByCols (V c main_arg0) (V c main_arg3)) := by
  show (cfg0.win 2).cut (grid0.coords t) ((dat0 V c).after 2 t) = _
  rw [after0_2]
  unfold out0_2
  rw [View.canon_unit_zero offZero]
  simp only [View.ld_unit_zero (S := S5000x128) offZero, View.ld_unit_zero (S := S128x64) offZero]
  obtain ⟨e0, e1, e2, e3, e4, e5⟩ := index_facts t
  funext j
  show k0_pay1 (F := Ideal) (iblk0 V c 0 t) (iblk0 V c 1 t) j = rowsByCols (V c main_arg0) (V c main_arg3) (((cfg0.win 2).blk t).view.emb j)
  refine blockProduct_eq (V c main_arg0) (V c main_arg3) (iblk0 V c 0 t) (iblk0 V c 1 t) j (((cfg0.win 2).blk t).view.emb j) (fun k => ?_) (fun k => ?_)
  · show V c main_arg0 (((cfg0.win 0).blk t).view.emb (blockLeftAt j k)) = V c main_arg0 (leftAt (((cfg0.win 2).blk t).view.emb j) k)
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  · show V c main_arg3 (((cfg0.win 1).blk t).view.emb (blockRightAt j k)) = V c main_arg3 (rightAt (((cfg0.win 2).blk t).view.emb j) k)
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega

/-- An index of the result is in point `t`'s block iff each coordinate is in the block's range on its axis. -/
theorem mem_block (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v32).slice (win0_2.rect t)).set ↔ _
  rw [View.set_slice_whole, Rect.mem_set_unit]
  exact Iff.rfl

/-- The ten blocks tile the result: row `r` lies in the block of point `r / 5000`. -/
theorem covered (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  obtain ⟨t, ht⟩ := index_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- THE ARRAY the first region leaves: the product of the two arrays it was entered with. -/
theorem final (c : Dev nD) : (dat0 V c).arrAt 2 cfg0.N = rowsByCols (V c main_arg0) (V c main_arg3) :=
  (dat0 V c).arrAt_eq_of_cover 2 _ (fun t _ => flushed_eq V c t) covered

end Region

end Cert.KernelIdeal.DenseFirst

end
-- ==== Proof.DenseSecond.lean ====
/-
  The second dense product of the kernel program, as ONE function of the arrays its region is entered with.

  The second region walks the 50000 rows of the hidden layer (50000×64, after the rectifier) in ten blocks of
  5000 rows. At a block the body reshapes the 5000×64 block to its own shape (nothing moves), changes the float
  format of both operands (the identity over the extended reals) and multiplies the block by the whole 64×128
  right operand into a zero accumulator. So the block written back at point `t` holds, at row `p` and column `q`,
  the sum over `k` of left (5000·t + p, k) · right (k, q): the entry (5000·t + p, q) of the plain product
  `rowsByCols`. The ten blocks tile the 50000×128 result, so the array the region leaves is `rowsByCols` of the
  two arrays it was entered with.
-/
import proofs.«112920_j38500086841928_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.DenseSecond

open Cert.KernelIdeal Cert.KernelIdeal.Gen Idealize.ShloMosaic Idealize.ShloMosaic.TcCoe Idealize.SL.Sem
open Idealize.ShloMosaic.Pipeline (Dat)

/-! ## The product, index by index -/

/-- Row `i 0`, column `k` of the left operand (the hidden layer). -/
abbrev leftAt (i : S50000x128.Idx) (k : Fin 64) : S50000x64.Idx := fun a => match a with
  | ⟨0, _⟩ => ⟨(i 0).val, (i 0).isLt⟩
  | ⟨1, _⟩ => ⟨k.val, k.isLt⟩
/-- Row `k`, column `i 1` of the right operand (the second weight matrix). -/
abbrev rightAt (i : S50000x128.Idx) (k : Fin 64) : S64x128.Idx := fun a => match a with
  | ⟨0, _⟩ => ⟨k.val, k.isLt⟩
  | ⟨1, _⟩ => ⟨(i 1).val, (i 1).isLt⟩

/-- The 50000×64 by 64×128 product over the extended reals: entry (r, q) is the sum over `k` of
    left (r, k) · right (k, q). -/
def rowsByCols (x : FVec Ideal S50000x64 .f32) (w : FVec Ideal S64x128 .f32) : FVec Ideal S50000x128 .f32 :=
  fun i => ∑ k : Fin 64, x (leftAt i k) * w (rightAt i k)

/-! ## One block's product -/

theorem offZero : (![0, 0] : Fin 2 → Nat) = fun _ => 0 := funext fun a => by fin_cases a <;> rfl

/-- Row `j 0`, column `k` of a 5000-row block of the left operand. -/
abbrev blockLeftAt (j : S5000x128.Idx) (k : Fin 64) : S5000x64.Idx := fun a => match a with
  | ⟨0, _⟩ => ⟨(j 0).val, (j 0).isLt⟩
  | ⟨1, _⟩ => ⟨k.val, k.isLt⟩
/-- Row `k`, column `j 1` of the right operand, from a block's index. -/
abbrev blockRightAt (j : S5000x128.Idx) (k : Fin 64) : S64x128.Idx := fun a => match a with
  | ⟨0, _⟩ => ⟨k.val, k.isLt⟩
  | ⟨1, _⟩ => ⟨(j 1).val, (j 1).isLt⟩

theorem lhs_axis0 (j : S5000x128.Idx) (q : dot_S5000x64_S64x128_S5000x128_1_0_0_1_n_n.contr.Idx) :
    (dot_S5000x64_S64x128_S5000x128_1_0_0_1_n_n.lhsIdx j q 0).val = (j 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem lhs_axis1 (j : S5000x128.Idx) (q : dot_S5000x64_S64x128_S5000x128_1_0_0_1_n_n.contr.Idx) :
    (dot_S5000x64_S64x128_S5000x128_1_0_0_1_n_n.lhsIdx j q 1).val = (q ⟨0, by decide⟩).val :=
  dot_S5000x64_S64x128_S5000x128_1_0_0_1_n_n.lhsIdx_val_of_single rfl j q
theorem rhs_axis0 (j : S5000x128.Idx) (q : dot_S5000x64_S64x128_S5000x128_1_0_0_1_n_n.contr.Idx) :
    (dot_S5000x64_S64x128_S5000x128_1_0_0_1_n_n.rhsIdx j q 0).val = (q ⟨0, by decide⟩).val :=
  dot_S5000x64_S64x128_S5000x128_1_0_0_1_n_n.rhsIdx_val_of_single rfl j q
theorem rhs_axis1 (j : S5000x128.Idx) (q : dot_S5000x64_S64x128_S5000x128_1_0_0_1_n_n.contr.Idx) :
    (dot_S5000x64_S64x128_S5000x128_1_0_0_1_n_n.rhsIdx j q 1).val = (j 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- The body's one stored value at row `j 0`, column `j 1` of the block: the reshape to the same shape moves
    nothing, so it is the sum over `k` of the loaded left block at (j 0, k) times the loaded right operand at (k, j 1). -/
theorem blockProduct_apply (x0 : FVec Ideal S5000x64 .f32) (x1 : FVec Ideal S64x128 .f32) (j : S5000x128.Idx) :
    k1_pay1 (F := Ideal) x0 x1 j = ∑ k : Fin 64, x0 (blockLeftAt j k) * x1 (blockRightAt j k) := by
  unfold k1_pay1
  rw [shapeCast_self]
  show FloatOps.matmul dot_S5000x64_S64x128_S5000x128_1_0_0_1_n_n none x0 x1 (constant S5000x128 .f32 0x00000000#32) j = _
  rw [Ideal.matmul_constant_zero_apply, ← Equiv.sum_comp (ValueIdx.contrEquiv1 dot_S5000x64_S64x128_S5000x128_1_0_0_1_n_n 64 rfl rfl).symm]
  refine Finset.sum_congr rfl fun k _ => ?_
  have hk := ValueIdx.contrEquiv1_symm_val dot_S5000x64_S64x128_S5000x128_1_0_0_1_n_n 64 rfl rfl k
  have el : dot_S5000x64_S64x128_S5000x128_1_0_0_1_n_n.lhsIdx j ((ValueIdx.contrEquiv1 dot_S5000x64_S64x128_S5000x128_1_0_0_1_n_n 64 rfl rfl).symm k) = blockLeftAt j k := funext fun a => Fin.ext (by
    match a with
    | ⟨0, _⟩ => exact lhs_axis0 _ _
    | ⟨1, _⟩ => exact (lhs_axis1 _ _).trans hk)
  have er : dot_S5000x64_S64x128_S5000x128_1_0_0_1_n_n.rhsIdx j ((ValueIdx.contrEquiv1 dot_S5000x64_S64x128_S5000x128_1_0_0_1_n_n 64 rfl rfl).symm k) = blockRightAt j k := funext fun a => Fin.ext (by
    match a with
    | ⟨0, _⟩ => exact (rhs_axis0 _ _).trans hk
    | ⟨1, _⟩ => exact rhs_axis1 _ _)
  rw [el, er]

/-- A block's stored value at `j` is the whole product at `i`, once the loaded left block at (j 0, k) is the left array
    at (i 0, k) and the loaded right operand at (k, j 1) is the right array at (k, i 1), for every `k`. -/
theorem blockProduct_eq (X : FVec Ideal S50000x64 .f32) (W : FVec Ideal S64x128 .f32)
    (x0 : FVec Ideal S5000x64 .f32) (x1 : FVec Ideal S64x128 .f32) (j : S5000x128.Idx) (i : S50000x128.Idx)
    (hx : ∀ k : Fin 64, x0 (blockLeftAt j k) = X (leftAt i k)) (hw : ∀ k : Fin 64, x1 (blockRightAt j k) = W (rightAt i k)) :
    k1_pay1 (F := Ideal) x0 x1 j = rowsByCols X W i := by
  rw [blockProduct_apply]
  exact Finset.sum_congr rfl fun k _ => by rw [hx k, hw k]

/-! ## From the blocks to the array -/

section Region

variable (V : (c : Dev nD) → (b : Ref sig .tc) → Buf (Elt Ideal) ((c : Thread nD τ).loc b))

/-- The printed index maps over the grid: the left operand's block and the result's block move together along the
    rows, one block per point; the right operand is always its one whole block. -/
theorem index_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 9 :=
  (by decide +kernel : ∀ t : Fin grid1.N, _)

/-- Every one of the ten row blocks of the result is some point's. -/
theorem index_onto : ∀ q0 : Fin 10, ∃ t : Fin cfg1.N, win1_2.index t = ![q0.val, 0] :=
  (by decide +kernel : ∀ q0 : Fin 10, ∃ t : Fin grid1.N, win1_2.index t = ![q0.val, 0])

/-- What point `t` writes back is block `t` of the product of the two arrays the region was entered with. -/
theorem flushed_eq (c : Dev nD) (t : Fin cfg1.N) :
    (dat1 V c).flushed 2 t = ((cfg1.win 2).blk t).view.read (Elt Ideal) (rowsByCols (V c main_v49) (V c main_arg5)) := by
  show (cfg1.win 2).cut (grid1.coords t) ((dat1 V c).after 2 t) = _
  rw [after1_2]
  unfold out1_2
  rw [View.canon_unit_zero offZero]
  simp only [View.ld_unit_zero (S := S5000x64) offZero, View.ld_unit_zero (S := S64x128) offZero]
  obtain ⟨e0, e1, e2, e3, e4, e5⟩ := index_facts t
  funext j
  show k1_pay1 (F := Ideal) (iblk1 V c 0 t) (iblk1 V c 1 t) j = rowsByCols (V c main_v49) (V c main_arg5) (((cfg1.win 2).blk t).view.emb j)
  refine blockProduct_eq (V c main_v49) (V c main_arg5) (iblk1 V c 0 t) (iblk1 V c 1 t) j (((cfg1.win 2).blk t).view.emb j) (fun k => ?_) (fun k => ?_)
  · show V c main_v49 (((cfg1.win 0).blk t).view.emb (blockLeftAt j k)) = V c main_v49 (leftAt (((cfg1.win 2).blk t).view.emb j) k)
    refine congrArg (V c main_v49) (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 64 + 1 * k.val = k.val; omega
  · show V c main_arg5 (((cfg1.win 1).blk t).view.emb (blockRightAt j k)) = V c main_arg5 (rightAt (((cfg1.win 2).blk t).view.emb j) k)
    refine congrArg (V c main_arg5) (funext fun a => Fin.ext ?_)
    match a with
    | ⟨0, _⟩ => show win1_1.index t (0 : Fin 2) * 64 + 1 * k.val = k.val; omega
    | ⟨1, _⟩ => show win1_1.index t (1 : Fin 2) * 128 + 1 * (j 1).val = win1_2.index t (1 : Fin 2) * 128 + 1 * (j 1).val; omega

/-- An index of the result is in point `t`'s block iff each coordinate is in the block's range on its axis. -/
theorem mem_block (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v50).slice (win1_2.rect t)).set ↔ _
  rw [View.set_slice_whole, Rect.mem_set_unit]
  exact Iff.rfl

/-- The ten blocks tile the result: row `r` lies in the block of point `r / 5000`. -/
theorem covered (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := index_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- THE ARRAY the second region leaves: the product of the two arrays it was entered with. -/
theorem final (c : Dev nD) : (dat1 V c).arrAt 2 cfg1.N = rowsByCols (V c main_v49) (V c main_arg5) :=
  (dat1 V c).arrAt_eq_of_cover 2 _ (fun t _ => flushed_eq V c t) covered

end Region

end Cert.KernelIdeal.DenseSecond

end
-- ==== Proof.Layers.lean ====
/-
  What the two programs share around their dense products, as two functions.

  Both programs compute a two-layer graph convolution. With `e` the edge list (sources in row 0, destinations in
  row 1) and `w` the edge weights, both first add a self-loop of weight one at every node and form the edge
  coefficients (the degree-normalised weights); that part does not involve a dense product at all. After a
  layer's dense product `h` both do exactly the same thing to it: gather the rows of `h` at the source nodes,
  scale each gathered row by its edge's coefficient, add the scaled rows into the destination nodes' rows of a
  zero array, and add the bias to every row; the first layer then takes the maximum with zero.
  `afterFirstProduct` and `afterSecondProduct` are those two tails as functions of the dense product `h`, written
  over the reference's own stages for everything that does not depend on `h`. The reference is the second tail of
  its second `dot_general` of the first tail of its first `dot_general`.
-/
import proofs.«112920_j38500086841928_1_alg».proof.Proof.Gen.ReferenceIdeal.Read

noncomputable section

namespace Cert.ReferenceIdeal.Layers

open Cert.ReferenceIdeal Cert.ReferenceIdeal.Gen Cert.ReferenceIdeal.Read Idealize.ShloMosaic Idealize.ShloMosaic.TcCoe Idealize.SL.Sem

variable {F : FTy → Type} [FloatOps F]

/-- The first layer after its dense product `h` (50000×64): rows of `h` gathered at the edges' sources, each scaled
    by its edge coefficient, added into the destinations' rows, plus the bias `b`, then the maximum with zero. -/
def afterFirstProduct (h : (⟨S50000x64, .f32⟩ : BufTy).Contents (Elt F)) (e : (⟨S2x800000, .i32⟩ : BufTy).Contents (Elt F))
    (w : (⟨S800000, .f32⟩ : BufTy).Contents (Elt F)) (b : (⟨S64, .f32⟩ : BufTy).Contents (Elt F)) :
    (⟨S50000x64, .f32⟩ : BufTy).Contents (Elt F) :=
  maximumf
    (addf
      (Host.scatterAdd scatter_S50000x64_S850000x1_S850000x64_1_0_0_1 (val_main_v43 (F := F)) (val_main_v44 (F := F) e)
        (mulf (Host.gather gather_S50000x64_S850000x1_S850000x64_1_0_n_n_0_1_164 h (val_main_v38 (F := F) e)) (val_main_v41 (F := F) e w)))
      (val_main_v47 (F := F) b))
    (val_main_call1_v0 (F := F))

/-- The second layer after its dense product `h` (50000×128): the same gather, scaling and scatter-add, plus the bias. -/
def afterSecondProduct (h : (⟨S50000x128, .f32⟩ : BufTy).Contents (Elt F)) (e : (⟨S2x800000, .i32⟩ : BufTy).Contents (Elt F))
    (w : (⟨S800000, .f32⟩ : BufTy).Contents (Elt F)) (b : (⟨S128, .f32⟩ : BufTy).Contents (Elt F)) :
    (⟨S50000x128, .f32⟩ : BufTy).Contents (Elt F) :=
  addf
    (Host.scatterAdd scatter_S50000x128_S850000x1_S850000x128_1_0_0_1 (val_main_v61 (F := F)) (val_main_v62 (F := F) e)
      (mulf (Host.gather gather_S50000x128_S850000x1_S850000x128_1_0_n_n_0_1_1128 h (val_main_v56 (F := F) e)) (val_main_v59 (F := F) e w)))
    (val_main_v65 (F := F) b)

/-- The reference's hidden layer is the first tail of its first dense product. -/
theorem hidden_eq (x0 : (⟨S50000x128, .f32⟩ : BufTy).Contents (Elt F)) (x1 : (⟨S2x800000, .i32⟩ : BufTy).Contents (Elt F))
    (x2 : (⟨S800000, .f32⟩ : BufTy).Contents (Elt F)) (x3 : (⟨S128x64, .f32⟩ : BufTy).Contents (Elt F)) (x4 : (⟨S64, .f32⟩ : BufTy).Contents (Elt F)) :
    val_main_v49 (F := F) x0 x1 x2 x3 x4 = afterFirstProduct (val_main_v32 (F := F) x0 x3) x1 x2 x4 := by
  unfold val_main_v49 val_main_v48 val_main_v45 val_main_v42 val_main_v39 afterFirstProduct
  rfl

/-- The reference's result is the second tail of its second dense product. -/
theorem result_eq (x0 : (⟨S50000x128, .f32⟩ : BufTy).Contents (Elt F)) (x1 : (⟨S2x800000, .i32⟩ : BufTy).Contents (Elt F))
    (x2 : (⟨S800000, .f32⟩ : BufTy).Contents (Elt F)) (x3 : (⟨S128x64, .f32⟩ : BufTy).Contents (Elt F)) (x4 : (⟨S64, .f32⟩ : BufTy).Contents (Elt F))
    (x5 : (⟨S64x128, .f32⟩ : BufTy).Contents (Elt F)) (x6 : (⟨S128, .f32⟩ : BufTy).Contents (Elt F)) :
    val_main_v66 (F := F) x0 x1 x2 x3 x4 x5 x6 = afterSecondProduct (val_main_v50 (F := F) x0 x1 x2 x3 x4 x5) x1 x2 x6 := by
  unfold val_main_v66 val_main_v63 val_main_v60 val_main_v57 afterSecondProduct
  rfl

end Cert.ReferenceIdeal.Layers

end
-- ==== Proof.HostSide.lean ====
/-
  The kernel program's result buffer at the return, read back through its host stretches and its two regions.

  The kernel program is the reference's text with each of the two dense products replaced by a Pallas region. So
  its run is: a first stretch of host operations that builds the self-looped edge lists and the edge coefficients
  from the edge list and the edge weights; the first region (the first plain product, by `DenseFirst.final`); a
  stretch that is the first shared tail; the second region (the second plain product, by `DenseSecond.final`);
  a last stretch that is the second shared tail. The buffer contents at the boundaries are a fold through these
  pieces; a stretch's result buffer reads back as the stretch's operations applied to the contents it was entered
  with, a buffer a stretch or a region does not write reads back as it was, and a region's output array reads back
  as its plain product. Put together, the result buffer at the return is the second tail of the second product of
  the first tail of the first product of the arguments at launch.
-/
import proofs.«112920_j38500086841928_1_alg».proof.Proof.Gen.KernelIdeal.Frame
import proofs.«112920_j38500086841928_1_alg».proof.Proof.DenseFirst
import proofs.«112920_j38500086841928_1_alg».proof.Proof.DenseSecond
import proofs.«112920_j38500086841928_1_alg».proof.Proof.Layers
import Idealize.ShloMosaic.Lib.StableHlo.Run

set_option maxRecDepth 16384

noncomputable section

namespace Cert.KernelIdeal.HostSide

open Cert.KernelIdeal Cert.KernelIdeal.Gen Idealize.ShloMosaic Idealize.ShloMosaic.TcCoe Idealize.SL.Sem Idealize.ShloMosaic.StableHlo

/-! ## What each host stretch computes, from any contents `U` it is entered with (at any float instance) -/

section Stretches

variable {F : FTy → Type} [FloatOps F]

/-- The first stretch leaves the self-looped source list: the reference's stage of the edge list. -/
theorem first_stretch_sources (U : Valuation τ sig (Elt F)) :
    StableHlo.after hostOps0_2 (StableHlo.after hostOps0_1 (StableHlo.after hostOps0 U)) (Proc.devRef .tc main_v3) = Cert.ReferenceIdeal.Read.val_main_v3 (F := F) (U (Proc.devRef .tc main_arg1)) := by
  simp only [hostOps0, hostOps0_1, hostOps0_2]
  after_results_simp <;> rfl

/-- The first stretch leaves the self-looped destination list: the reference's stage of the edge list. -/
theorem first_stretch_destinations (U : Valuation τ sig (Elt F)) :
    StableHlo.after hostOps0_2 (StableHlo.after hostOps0_1 (StableHlo.after hostOps0 U)) (Proc.devRef .tc main_v6) = Cert.ReferenceIdeal.Read.val_main_v6 (F := F) (U (Proc.devRef .tc main_arg1)) := by
  simp only [hostOps0, hostOps0_1, hostOps0_2]
  after_results_simp <;> rfl

set_option maxHeartbeats 4000000 in
/-- The first stretch leaves the edge coefficients: the reference's stage of the edge list and the edge weights. -/
theorem first_stretch_coefficients (U : Valuation τ sig (Elt F)) :
    StableHlo.after hostOps0_2 (StableHlo.after hostOps0_1 (StableHlo.after hostOps0 U)) (Proc.devRef .tc main_v31)
      = Cert.ReferenceIdeal.Read.val_main_v31 (F := F) (U (Proc.devRef .tc main_arg1)) (U (Proc.devRef .tc main_arg2)) := by
  simp only [hostOps0, hostOps0_1, hostOps0_2]
  after_results_simp <;> rfl

/-- The first stretch writes no argument. -/
theorem first_stretch_keeps_arg0 (U : Valuation τ sig (Elt F)) :
    StableHlo.after hostOps0_2 (StableHlo.after hostOps0_1 (StableHlo.after hostOps0 U)) (Proc.devRef .tc main_arg0) = U (Proc.devRef .tc main_arg0) := by
  simp only [hostOps0, hostOps0_1, hostOps0_2]
  after_results_simp <;> rfl
theorem first_stretch_keeps_arg3 (U : Valuation τ sig (Elt F)) :
    StableHlo.after hostOps0_2 (StableHlo.after hostOps0_1 (StableHlo.after hostOps0 U)) (Proc.devRef .tc main_arg3) = U (Proc.devRef .tc main_arg3) := by
  simp only [hostOps0, hostOps0_1, hostOps0_2]
  after_results_simp <;> rfl
theorem first_stretch_keeps_arg4 (U : Valuation τ sig (Elt F)) :
    StableHlo.after hostOps0_2 (StableHlo.after hostOps0_1 (StableHlo.after hostOps0 U)) (Proc.devRef .tc main_arg4) = U (Proc.devRef .tc main_arg4) := by
  simp only [hostOps0, hostOps0_1, hostOps0_2]
  after_results_simp <;> rfl
theorem first_stretch_keeps_arg5 (U : Valuation τ sig (Elt F)) :
    StableHlo.after hostOps0_2 (StableHlo.after hostOps0_1 (StableHlo.after hostOps0 U)) (Proc.devRef .tc main_arg5) = U (Proc.devRef .tc main_arg5) := by
  simp only [hostOps0, hostOps0_1, hostOps0_2]
  after_results_simp <;> rfl
theorem first_stretch_keeps_arg6 (U : Valuation τ sig (Elt F)) :
    StableHlo.after hostOps0_2 (StableHlo.after hostOps0_1 (StableHlo.after hostOps0 U)) (Proc.devRef .tc main_arg6) = U (Proc.devRef .tc main_arg6) := by
  simp only [hostOps0, hostOps0_1, hostOps0_2]
  after_results_simp <;> rfl

set_option maxHeartbeats 4000000 in
/-- The middle stretch is the first shared tail: entered with the dense product `h`, the two lists and the coefficients
    as the reference's stages of `e` and `w`, and the bias `b`, it leaves `afterFirstProduct h e w b`. -/
theorem middle_stretch_hidden (U : Valuation τ sig (Elt F)) (h : (⟨S50000x64, .f32⟩ : BufTy).Contents (Elt F))
    (e : (⟨S2x800000, .i32⟩ : BufTy).Contents (Elt F)) (w : (⟨S800000, .f32⟩ : BufTy).Contents (Elt F)) (b : (⟨S64, .f32⟩ : BufTy).Contents (Elt F))
    (hh : U (Proc.devRef .tc main_v32) = h) (hs : U (Proc.devRef .tc main_v3) = Cert.ReferenceIdeal.Read.val_main_v3 (F := F) e)
    (hd : U (Proc.devRef .tc main_v6) = Cert.ReferenceIdeal.Read.val_main_v6 (F := F) e) (hc : U (Proc.devRef .tc main_v31) = Cert.ReferenceIdeal.Read.val_main_v31 (F := F) e w)
    (hb : U (Proc.devRef .tc main_arg4) = b) :
    StableHlo.after hostOps1_1 (StableHlo.after hostOps1 U) (Proc.devRef .tc main_v49) = Cert.ReferenceIdeal.Layers.afterFirstProduct (F := F) h e w b := by
  simp only [hostOps1, hostOps1_1]
  after_results_simp
  rw [hh, hs, hd, hc, hb]
  rfl

/-- The middle stretch writes neither list, nor the coefficients, nor a later argument. -/
theorem middle_stretch_keeps_sources (U : Valuation τ sig (Elt F)) :
    StableHlo.after hostOps1_1 (StableHlo.after hostOps1 U) (Proc.devRef .tc main_v3) = U (Proc.devRef .tc main_v3) := by
  simp only [hostOps1, hostOps1_1]
  after_results_simp <;> rfl
theorem middle_stretch_keeps_destinations (U : Valuation τ sig (Elt F)) :
    StableHlo.after hostOps1_1 (StableHlo.after hostOps1 U) (Proc.devRef .tc main_v6) = U (Proc.devRef .tc main_v6) := by
  simp only [hostOps1, hostOps1_1]
  after_results_simp <;> rfl
theorem middle_stretch_keeps_coefficients (U : Valuation τ sig (Elt F)) :
    StableHlo.after hostOps1_1 (StableHlo.after hostOps1 U) (Proc.devRef .tc main_v31) = U (Proc.devRef .tc main_v31) := by
  simp only [hostOps1, hostOps1_1]
  after_results_simp <;> rfl
theorem middle_stretch_keeps_arg5 (U : Valuation τ sig (Elt F)) :
    StableHlo.after hostOps1_1 (StableHlo.after hostOps1 U) (Proc.devRef .tc main_arg5) = U (Proc.devRef .tc main_arg5) := by
  simp only [hostOps1, hostOps1_1]
  after_results_simp <;> rfl
theorem middle_stretch_keeps_arg6 (U : Valuation τ sig (Elt F)) :
    StableHlo.after hostOps1_1 (StableHlo.after hostOps1 U) (Proc.devRef .tc main_arg6) = U (Proc.devRef .tc main_arg6) := by
  simp only [hostOps1, hostOps1_1]
  after_results_simp <;> rfl

set_option maxHeartbeats 4000000 in
/-- The last stretch is the second shared tail. -/
theorem last_stretch_result (U : Valuation τ sig (Elt F)) (h : (⟨S50000x128, .f32⟩ : BufTy).Contents (Elt F))
    (e : (⟨S2x800000, .i32⟩ : BufTy).Contents (Elt F)) (w : (⟨S800000, .f32⟩ : BufTy).Contents (Elt F)) (b : (⟨S128, .f32⟩ : BufTy).Contents (Elt F))
    (hh : U (Proc.devRef .tc main_v50) = h) (hs : U (Proc.devRef .tc main_v3) = Cert.ReferenceIdeal.Read.val_main_v3 (F := F) e)
    (hd : U (Proc.devRef .tc main_v6) = Cert.ReferenceIdeal.Read.val_main_v6 (F := F) e) (hc : U (Proc.devRef .tc main_v31) = Cert.ReferenceIdeal.Read.val_main_v31 (F := F) e w)
    (hb : U (Proc.devRef .tc main_arg6) = b) :
    StableHlo.after hostOps2 U (Proc.devRef .tc main_v66) = Cert.ReferenceIdeal.Layers.afterSecondProduct (F := F) h e w b := by
  simp only [hostOps2]
  after_results_simp
  rw [hh, hs, hd, hc, hb]
  rfl

end Stretches

/-! ## The fold through the run, at the extended reals -/

section Fold

variable (m : (ℓ : Loc nD τ sig) → Buf (Elt Ideal) ℓ) (ρ : Dev nD → PrngReg)

/-! ### At the first region's entry -/

theorem sources_at_entry (c : Dev nD) :
    W3 m ρ c (Proc.devRef .tc main_v3) = Cert.ReferenceIdeal.Read.val_main_v3 (F := Ideal) (m ((c : Thread nD τ).loc main_arg1)) :=
  first_stretch_sources (W0 m ρ c)
theorem destinations_at_entry (c : Dev nD) :
    W3 m ρ c (Proc.devRef .tc main_v6) = Cert.ReferenceIdeal.Read.val_main_v6 (F := Ideal) (m ((c : Thread nD τ).loc main_arg1)) :=
  first_stretch_destinations (W0 m ρ c)
theorem coefficients_at_entry (c : Dev nD) :
    W3 m ρ c (Proc.devRef .tc main_v31) = Cert.ReferenceIdeal.Read.val_main_v31 (F := Ideal) (m ((c : Thread nD τ).loc main_arg1)) (m ((c : Thread nD τ).loc main_arg2)) :=
  first_stretch_coefficients (W0 m ρ c)
theorem arg0_at_entry (c : Dev nD) : W3 m ρ c (Proc.devRef .tc main_arg0) = (m ((c : Thread nD τ).loc main_arg0)) := first_stretch_keeps_arg0 (W0 m ρ c)
theorem arg3_at_entry (c : Dev nD) : W3 m ρ c (Proc.devRef .tc main_arg3) = (m ((c : Thread nD τ).loc main_arg3)) := first_stretch_keeps_arg3 (W0 m ρ c)
theorem arg4_at_entry (c : Dev nD) : W3 m ρ c (Proc.devRef .tc main_arg4) = (m ((c : Thread nD τ).loc main_arg4)) := first_stretch_keeps_arg4 (W0 m ρ c)
theorem arg5_at_entry (c : Dev nD) : W3 m ρ c (Proc.devRef .tc main_arg5) = (m ((c : Thread nD τ).loc main_arg5)) := first_stretch_keeps_arg5 (W0 m ρ c)
theorem arg6_at_entry (c : Dev nD) : W3 m ρ c (Proc.devRef .tc main_arg6) = (m ((c : Thread nD τ).loc main_arg6)) := first_stretch_keeps_arg6 (W0 m ρ c)

/-! ### At the first region's exit: its output array is the first plain product; what it does not own is as entered -/

theorem product_at_exit0 (c : Dev nD) : W4 m ρ c (Proc.devRef .tc main_v32) = DenseFirst.rowsByCols (m ((c : Thread nD τ).loc main_arg0)) (m ((c : Thread nD τ).loc main_arg3)) := by
  refine (W4_arr m ρ c 2).trans ((DenseFirst.final (V3 m ρ) c).trans ?_)
  show DenseFirst.rowsByCols (W3 m ρ c (Proc.devRef .tc main_arg0)) (W3 m ρ c (Proc.devRef .tc main_arg3)) = _
  rw [arg0_at_entry, arg3_at_entry]

/-! ### At the second region's entry -/

/-- The hidden layer is the first shared tail of the first plain product. -/
theorem hidden_at_entry1 (c : Dev nD) : W6 m ρ c (Proc.devRef .tc main_v49) = Cert.ReferenceIdeal.Layers.afterFirstProduct (F := Ideal) (DenseFirst.rowsByCols (m ((c : Thread nD τ).loc main_arg0)) (m ((c : Thread nD τ).loc main_arg3))) (m ((c : Thread nD τ).loc main_arg1)) (m ((c : Thread nD τ).loc main_arg2)) (m ((c : Thread nD τ).loc main_arg4)) :=
  middle_stretch_hidden (W4 m ρ c) _ _ _ _ (product_at_exit0 m ρ c)
    ((W4_of_ne m ρ c main_v3 (by decide)).trans (sources_at_entry m ρ c))
    ((W4_of_ne m ρ c main_v6 (by decide)).trans (destinations_at_entry m ρ c))
    ((W4_of_ne m ρ c main_v31 (by decide)).trans (coefficients_at_entry m ρ c))
    ((W4_of_ne m ρ c main_arg4 (by decide)).trans (arg4_at_entry m ρ c))
theorem sources_at_entry1 (c : Dev nD) :
    W6 m ρ c (Proc.devRef .tc main_v3) = Cert.ReferenceIdeal.Read.val_main_v3 (F := Ideal) (m ((c : Thread nD τ).loc main_arg1)) :=
  (middle_stretch_keeps_sources (W4 m ρ c)).trans ((W4_of_ne m ρ c main_v3 (by decide)).trans (sources_at_entry m ρ c))
theorem destinations_at_entry1 (c : Dev nD) :
    W6 m ρ c (Proc.devRef .tc main_v6) = Cert.ReferenceIdeal.Read.val_main_v6 (F := Ideal) (m ((c : Thread nD τ).loc main_arg1)) :=
  (middle_stretch_keeps_destinations (W4 m ρ c)).trans ((W4_of_ne m ρ c main_v6 (by decide)).trans (destinations_at_entry m ρ c))
theorem coefficients_at_entry1 (c : Dev nD) :
    W6 m ρ c (Proc.devRef .tc main_v31) = Cert.ReferenceIdeal.Read.val_main_v31 (F := Ideal) (m ((c : Thread nD τ).loc main_arg1)) (m ((c : Thread nD τ).loc main_arg2)) :=
  (middle_stretch_keeps_coefficients (W4 m ρ c)).trans ((W4_of_ne m ρ c main_v31 (by decide)).trans (coefficients_at_entry m ρ c))
theorem arg5_at_entry1 (c : Dev nD) : W6 m ρ c (Proc.devRef .tc main_arg5) = (m ((c : Thread nD τ).loc main_arg5)) :=
  (middle_stretch_keeps_arg5 (W4 m ρ c)).trans ((W4_of_ne m ρ c main_arg5 (by decide)).trans (arg5_at_entry m ρ c))
theorem arg6_at_entry1 (c : Dev nD) : W6 m ρ c (Proc.devRef .tc main_arg6) = (m ((c : Thread nD τ).loc main_arg6)) :=
  (middle_stretch_keeps_arg6 (W4 m ρ c)).trans ((W4_of_ne m ρ c main_arg6 (by decide)).trans (arg6_at_entry m ρ c))

/-! ### At the second region's exit: its output array is the second plain product of the hidden layer -/

theorem product_at_exit1 (c : Dev nD) :
    W7 m ρ c (Proc.devRef .tc main_v50) = DenseSecond.rowsByCols (Cert.ReferenceIdeal.Layers.afterFirstProduct (F := Ideal) (DenseFirst.rowsByCols (m ((c : Thread nD τ).loc main_arg0)) (m ((c : Thread nD τ).loc main_arg3))) (m ((c : Thread nD τ).loc main_arg1)) (m ((c : Thread nD τ).loc main_arg2)) (m ((c : Thread nD τ).loc main_arg4))) (m ((c : Thread nD τ).loc main_arg5)) := by
  refine (W7_arr m ρ c 2).trans ((DenseSecond.final (V6 m ρ) c).trans ?_)
  show DenseSecond.rowsByCols (W6 m ρ c (Proc.devRef .tc main_v49)) (W6 m ρ c (Proc.devRef .tc main_arg5)) = _
  rw [hidden_at_entry1, arg5_at_entry1]

/-! ### At the return -/

/-- THE RESULT BUFFER at the return: the second shared tail of the second plain product of the first shared tail of
    the first plain product of the arguments as launched. -/
theorem result_at_return (c : Dev nD) :
    W8 m ρ c (Proc.devRef .tc main_v66)
      = Cert.ReferenceIdeal.Layers.afterSecondProduct (F := Ideal) (DenseSecond.rowsByCols (Cert.ReferenceIdeal.Layers.afterFirstProduct (F := Ideal) (DenseFirst.rowsByCols (m ((c : Thread nD τ).loc main_arg0)) (m ((c : Thread nD τ).loc main_arg3))) (m ((c : Thread nD τ).loc main_arg1)) (m ((c : Thread nD τ).loc main_arg2)) (m ((c : Thread nD τ).loc main_arg4))) (m ((c : Thread nD τ).loc main_arg5))) (m ((c : Thread nD τ).loc main_arg1)) (m ((c : Thread nD τ).loc main_arg2)) (m ((c : Thread nD τ).loc main_arg6)) :=
  last_stretch_result (W7 m ρ c) _ _ _ _ (product_at_exit1 m ρ c)
    ((W7_of_ne m ρ c main_v3 (by decide)).trans (sources_at_entry1 m ρ c))
    ((W7_of_ne m ρ c main_v6 (by decide)).trans (destinations_at_entry1 m ρ c))
    ((W7_of_ne m ρ c main_v31 (by decide)).trans (coefficients_at_entry1 m ρ c))
    ((W7_of_ne m ρ c main_arg6 (by decide)).trans (arg6_at_entry1 m ρ c))

end Fold

end Cert.KernelIdeal.HostSide

end
-- ==== Proof.ReferenceSide.lean ====
/-
  The reference's result as the two shared tails around the two plain products.

  At the extended reals the host's `dot_general` of a 50000×128 array with a 128×64 one is, entry by entry, the sum
  over `k` of left (r, k) · right (k, q): the function `rowsByCols` the kernel's first region was shown to leave;
  likewise for the 50000×64 by 64×128 product of the second layer. So the reference's result is the second tail of
  the second plain product of the first tail of the first plain product of its arguments.
-/
import proofs.«112920_j38500086841928_1_alg».proof.Proof.Layers
import proofs.«112920_j38500086841928_1_alg».proof.Proof.DenseFirst
import proofs.«112920_j38500086841928_1_alg».proof.Proof.DenseSecond

noncomputable section

namespace Cert.ReferenceIdeal.Products

open Cert.ReferenceIdeal Cert.ReferenceIdeal.Gen Cert.ReferenceIdeal.Read Idealize.ShloMosaic Idealize.ShloMosaic.TcCoe Idealize.SL.Sem

/-- The reference's first `dot_general` is the first plain product. -/
theorem first_product (x0 : (⟨S50000x128, .f32⟩ : BufTy).Contents (Elt Ideal)) (x3 : (⟨S128x64, .f32⟩ : BufTy).Contents (Elt Ideal)) :
    val_main_v32 (F := Ideal) x0 x3 = Cert.KernelIdeal.DenseFirst.rowsByCols x0 x3 := by
  funext i
  rw [val_main_v32_apply]
  refine Finset.sum_congr rfl fun k _ => ?_
  have el : lidx_main_v32 i k = Cert.KernelIdeal.DenseFirst.leftAt i k := funext fun a => by
    match a with
    | ⟨0, _⟩ => rfl
    | ⟨1, _⟩ => rfl
  have er : ridx_main_v32 i k = Cert.KernelIdeal.DenseFirst.rightAt i k := funext fun a => by
    match a with
    | ⟨0, _⟩ => rfl
    | ⟨1, _⟩ => rfl
  rw [el, er]

/-- The reference's second `dot_general` is the second plain product of its hidden layer. -/
theorem second_product (x0 : (⟨S50000x128, .f32⟩ : BufTy).Contents (Elt Ideal)) (x1 : (⟨S2x800000, .i32⟩ : BufTy).Contents (Elt Ideal))
    (x2 : (⟨S800000, .f32⟩ : BufTy).Contents (Elt Ideal)) (x3 : (⟨S128x64, .f32⟩ : BufTy).Contents (Elt Ideal)) (x4 : (⟨S64, .f32⟩ : BufTy).Contents (Elt Ideal))
    (x5 : (⟨S64x128, .f32⟩ : BufTy).Contents (Elt Ideal)) :
    val_main_v50 (F := Ideal) x0 x1 x2 x3 x4 x5 = Cert.KernelIdeal.DenseSecond.rowsByCols (val_main_v49 (F := Ideal) x0 x1 x2 x3 x4) x5 := by
  funext i
  rw [val_main_v50_apply]
  refine Finset.sum_congr rfl fun k _ => ?_
  have el : lidx_main_v50 i k = Cert.KernelIdeal.DenseSecond.leftAt i k := funext fun a => by
    match a with
    | ⟨0, _⟩ => rfl
    | ⟨1, _⟩ => rfl
  have er : ridx_main_v50 i k = Cert.KernelIdeal.DenseSecond.rightAt i k := funext fun a => by
    match a with
    | ⟨0, _⟩ => rfl
    | ⟨1, _⟩ => rfl
  rw [el, er]

/-- THE REFERENCE'S RESULT, as a function of its seven arguments: the second tail of the second plain product of the
    first tail of the first plain product. -/
theorem result_eq (x0 : (⟨S50000x128, .f32⟩ : BufTy).Contents (Elt Ideal)) (x1 : (⟨S2x800000, .i32⟩ : BufTy).Contents (Elt Ideal))
    (x2 : (⟨S800000, .f32⟩ : BufTy).Contents (Elt Ideal)) (x3 : (⟨S128x64, .f32⟩ : BufTy).Contents (Elt Ideal)) (x4 : (⟨S64, .f32⟩ : BufTy).Contents (Elt Ideal))
    (x5 : (⟨S64x128, .f32⟩ : BufTy).Contents (Elt Ideal)) (x6 : (⟨S128, .f32⟩ : BufTy).Contents (Elt Ideal)) :
    val_main_v66 (F := Ideal) x0 x1 x2 x3 x4 x5 x6
      = Layers.afterSecondProduct (Cert.KernelIdeal.DenseSecond.rowsByCols
          (Layers.afterFirstProduct (Cert.KernelIdeal.DenseFirst.rowsByCols x0 x3) x1 x2 x4) x5) x1 x2 x6 := by
  rw [Layers.result_eq, second_product, Layers.hidden_eq, first_product]

end Cert.ReferenceIdeal.Products

end
-- ==== Proof.lean ====
/-
  The certificate of a two-layer graph convolution whose two dense products run as Pallas regions, against the plain
  jnp reference, over the extended reals.

  Both programs take node features `x` (50000×128), an edge list (2×800000), edge weights, and two weight matrices
  with their biases. Both add a self-loop of weight one at every node, sum the weights into each destination node's
  degree, and scale every edge's weight by the inverse square roots of its two end nodes' degrees (zero where the
  degree is not positive). A layer is then: multiply the features by the weight matrix; gather the product's rows at
  the edges' sources; scale each gathered row by its edge's coefficient; add the scaled rows into the destinations'
  rows; add the bias. The first layer is followed by the maximum with zero.

  The two programs are the same text except for the two dense products: the reference has a `dot_general`, the kernel a
  region that walks the rows in ten blocks of 5000, multiplying each block by the whole weight matrix into a zero
  accumulator after a change of float format. Over the extended reals that change is the identity, and both the
  region's blocks together (Proof/DenseFirst.lean, Proof/DenseSecond.lean) and the `dot_general`
  (Proof/ReferenceSide.lean) are the plain product: entry (r, q) is the sum over `k` of left (r, k) · right (k, q). No law of
  the extended reals beyond that is used, so the precondition (finite inputs) is never opened. Everything around the
  products is carried as two shared functions (Proof/Layers.lean), applied on the kernel's side by reading its buffers
  back through its host stretches and regions (Proof/HostSide.lean) over its run with the result buffer kept
  (Proof/RunResult.lean).

  The frames of the two kernel programs are the generated ones; the reference's is its generated run with the result
  dropped. The idealization rewrote nothing, so `preserves` has nothing to state.
-/
import proofs.«112920_j38500086841928_1_alg».proof.Defs
import proofs.«112920_j38500086841928_1_alg».proof.Proof.Gen.Kernel
import proofs.«112920_j38500086841928_1_alg».proof.Proof.Gen.Kernel.Frame
import proofs.«112920_j38500086841928_1_alg».proof.Proof.Gen.KernelIdeal
import proofs.«112920_j38500086841928_1_alg».proof.Proof.Gen.KernelIdeal.Frame
import proofs.«112920_j38500086841928_1_alg».proof.Proof.Gen.ReferenceIdeal
import proofs.«112920_j38500086841928_1_alg».proof.Proof.Gen.Pre_finite_inputs
import proofs.«112920_j38500086841928_1_alg».proof.Proof.Gen.ReferenceIdeal.Run
import proofs.«112920_j38500086841928_1_alg».proof.Proof.Gen.ReferenceIdeal.Read
import proofs.«112920_j38500086841928_1_alg».proof.Proof.RunResult
import proofs.«112920_j38500086841928_1_alg».proof.Proof.HostSide
import proofs.«112920_j38500086841928_1_alg».proof.Proof.ReferenceSide
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the second shared tail of the second plain product of the first shared tail of the first
    plain product of the arguments: the kernel by reading its result buffer back through its run, the reference by
    its run's term with each `dot_general` read as the plain product, the arguments agreeing. -/
theorem algebraic : Cert.algebraic_KernelIdeal_ReferenceIdeal := by
  intro m ρ m' ρ' _ hagree
  refine ⟨fun c => Cert.ReferenceIdeal.Layers.afterSecondProduct (F := Ideal)
      (Cert.KernelIdeal.DenseSecond.rowsByCols
        (Cert.ReferenceIdeal.Layers.afterFirstProduct (F := Ideal) (Cert.KernelIdeal.DenseFirst.rowsByCols (m ((c.tc : Thread Cert.KernelIdeal.nD Cert.KernelIdeal.τ).loc Cert.KernelIdeal.main_arg0)) (m ((c.tc : Thread Cert.KernelIdeal.nD Cert.KernelIdeal.τ).loc Cert.KernelIdeal.main_arg3))) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)))
        (m ((c.tc : Thread Cert.KernelIdeal.nD Cert.KernelIdeal.τ).loc Cert.KernelIdeal.main_arg5)))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.HostSide.result_at_return m ρ c), (h c).2⟩)
      (Cert.KernelIdeal.Gen.run_result m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6⟩ := hagree c
    rw [Cert.ReferenceIdeal.Read.val_main_v66_eq, Cert.ReferenceIdeal.Products.result_eq, a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
